-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x256 .f32) (main_arg3 : FVec F S256 .f32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x256 : Shape := ⟨2, ![100000, 256]⟩
abbrev S5000x128 : Shape := ⟨2, ![5000, 128]⟩
abbrev S5000x256 : Shape := ⟨2, ![5000, 256]⟩
abbrev S700000x256 : Shape := ⟨2, ![700000, 256]⟩
abbrev S1x256 : Shape := ⟨2, ![1, 256]⟩
abbrev S700000x128 : Shape := ⟨2, ![700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x256, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x256, .f32⟩
  | .hbm, ⟨56, _⟩ => ⟨S700000x1, .f32⟩
  | .hbm, ⟨57, _⟩ => ⟨S700000x256, .f32⟩
  | .hbm, ⟨58, _⟩ => ⟨S700000x256, .f32⟩
  | .hbm, ⟨59, _⟩ => ⟨S_, .f32⟩
  | .hbm, ⟨60, _⟩ => ⟨S100000x256, .f32⟩
  | .hbm, ⟨61, _⟩ => ⟨S700000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x128, .f32⟩
  | .hbm, ⟨66, _⟩ => ⟨S_, .i32⟩
  | .hbm, ⟨67, _⟩ => ⟨S700000, .i32⟩
  | .hbm, ⟨68, _⟩ => ⟨S700000, .i1⟩
  | .hbm, ⟨69, _⟩ => ⟨S_, .i32⟩
  | .hbm, ⟨70, _⟩ => ⟨S700000, .i32⟩
  | .hbm, ⟨71, _⟩ => ⟨S700000, .i32⟩
  | .hbm, ⟨72, _⟩ => ⟨S700000, .i32⟩
  | .hbm, ⟨73, _⟩ => ⟨S700000x1, .i32⟩
  | .hbm, ⟨74, _⟩ => ⟨S700000x128, .f32⟩
  | .hbm, ⟨75, _⟩ => ⟨S700000x1, .f32⟩
  | .hbm, ⟨76, _⟩ => ⟨S700000x128, .f32⟩
  | .hbm, ⟨77, _⟩ => ⟨S700000x128, .f32⟩
  | .hbm, ⟨78, _⟩ => ⟨S_, .f32⟩
  | .hbm, ⟨79, _⟩ => ⟨S100000x128, .f32⟩
  | .hbm, ⟨80, _⟩ => ⟨S700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x256_S5000x256_1_0_0_1_n_n_wf : DotDims.WF S5000x128 S128x256 S5000x256 [1] [0] [0] [1] [] []
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1
  dot_S5000x256_S256x128_S5000x128_1_0_0_1_n_n_wf : DotDims.WF S5000x256 S256x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x256 : Shape := ⟨2, ![100000, 256]⟩
abbrev S700000x256 : Shape := ⟨2, ![700000, 256]⟩
abbrev S1x256 : Shape := ⟨2, ![1, 256]⟩
abbrev S700000x128 : Shape := ⟨2, ![700000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x600000, .i32⟩
  | 2 => ⟨S128x256, .f32⟩
  | 3 => ⟨S256, .f32⟩
  | 4 => ⟨S256x128, .f32⟩
  | 5 => ⟨S128, .f32⟩
  | 6 => ⟨S100000, .i32⟩
  | 7 => ⟨S1x600000, .i32⟩
  | 8 => ⟨S600000, .i32⟩
  | 9 => ⟨S700000, .i32⟩
  | 10 => ⟨S1x600000, .i32⟩
  | 11 => ⟨S600000, .i32⟩
  | 12 => ⟨S700000, .i32⟩
  | 13 => ⟨S_, .f32⟩
  | 14 => ⟨S700000, .f32⟩
  | 15 => ⟨S_, .f32⟩
  | 16 => ⟨S100000, .f32⟩
  | 17 => ⟨S700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S700000, .i32⟩
  | 29 => ⟨S700000, .i1⟩
  | 30 => ⟨S_, .i32⟩
  | 31 => ⟨S700000, .i32⟩
  | 32 => ⟨S700000, .i32⟩
  | 33 => ⟨S700000, .i32⟩
  | 34 => ⟨S700000x1, .i32⟩
  | 35 => ⟨S700000, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S700000, .f32⟩
  | 46 => ⟨S100000x256, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000x256, .f32⟩
  | 56 => ⟨S700000x1, .f32⟩
  | 57 => ⟨S700000x256, .f32⟩
  | 58 => ⟨S700000x256, .f32⟩
  | 59 => ⟨S_, .f32⟩
  | 60 => ⟨S100000x256, .f32⟩
  | 61 => ⟨S700000x1, .i32⟩
  | 62 => ⟨S100000x256, .f32⟩
  | 63 => ⟨S1x256, .f32⟩
  | 64 => ⟨S100000x256, .f32⟩
  | 65 => ⟨S100000x256, .f32⟩
  | 66 => ⟨S_, .f32⟩
  | 67 => ⟨S100000x256, .f32⟩
  | 68 => ⟨S100000x256, .f32⟩
  | 69 => ⟨S100000, .i32⟩
  | 70 => ⟨S1x600000, .i32⟩
  | 71 => ⟨S600000, .i32⟩
  | 72 => ⟨S700000, .i32⟩
  | 73 => ⟨S1x600000, .i32⟩
  | 74 => ⟨S600000, .i32⟩
  | 75 => ⟨S700000, .i32⟩
  | 76 => ⟨S_, .f32⟩
  | 77 => ⟨S700000, .f32⟩
  | 78 => ⟨S_, .f32⟩
  | 79 => ⟨S100000, .f32⟩
  | 80 => ⟨S700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S700000, .i32⟩
  | 92 => ⟨S700000, .i1⟩
  | 93 => ⟨S_, .i32⟩
  | 94 => ⟨S700000, .i32⟩
  | 95 => ⟨S700000, .i32⟩
  | 96 => ⟨S700000, .i32⟩
  | 97 => ⟨S700000x1, .i32⟩
  | 98 => ⟨S700000, .f32⟩
  | 99 => ⟨S_, .i32⟩
  | 100 => ⟨S700000, .i32⟩
  | 101 => ⟨S700000, .i1⟩
  | 102 => ⟨S_, .i32⟩
  | 103 => ⟨S700000, .i32⟩
  | 104 => ⟨S700000, .i32⟩
  | 105 => ⟨S700000, .i32⟩
  | 106 => ⟨S700000x1, .i32⟩
  | 107 => ⟨S700000, .f32⟩
  | 108 => ⟨S700000, .f32⟩
  | 109 => ⟨S100000x128, .f32⟩
  | 110 => ⟨S_, .i32⟩
  | 111 => ⟨S700000, .i32⟩
  | 112 => ⟨S700000, .i1⟩
  | 113 => ⟨S_, .i32⟩
  | 114 => ⟨S700000, .i32⟩
  | 115 => ⟨S700000, .i32⟩
  | 116 => ⟨S700000, .i32⟩
  | 117 => ⟨S700000x1, .i32⟩
  | 118 => ⟨S700000x128, .f32⟩
  | 119 => ⟨S700000x1, .f32⟩
  | 120 => ⟨S700000x128, .f32⟩
  | 121 => ⟨S700000x128, .f32⟩
  | 122 => ⟨S_, .f32⟩
  | 123 => ⟨S100000x128, .f32⟩
  | 124 => ⟨S700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x256_S100000x256_1_0_0_1_n_n_wf : DotDims.WF S100000x128 S128x256 S100000x256 [1] [0] [0] [1] [] []
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1
  dot_S100000x256_S256x128_S100000x128_1_0_0_1_n_n_wf : DotDims.WF S100000x256 S256x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.HostStretches.lean ====
/-
  The host stretches of the kernel's @main, each read as a function of what it finds.
  Before the first launch the program builds, from the edge list alone, the source and target index vectors
  (the edges followed by one self-loop per node) and the per-edge weight dinv[src] · dinv[dst], where dinv is the
  inverse square root of the target-degree (zero where the degree is zero). After each linear launch it gathers the
  rows of the launch's result at the sources, scales row e by weight e, and adds row e into row dst(e) of a zero
  array; it also views the bias vector as one row. These are the very operations the reference applies, so each
  stretch's result is the reference's stage of the same name, applied to whatever the stretch read. The reference
  rebuilds the index vectors and the weights for its second layer; those stages are the first layer's, term for term.
  Everything here holds for any float arithmetic: no operation is opened.
-/
import proofs.«108220_j42279658062345_1_alg».proof.Proof.Gen.KernelIdeal.Launch
import proofs.«108220_j42279658062345_1_alg».proof.Proof.RefRead
import Idealize.ShloMosaic.Lib.StableHlo.Run

set_option maxRecDepth 16384

noncomputable section

namespace Cert.KernelIdeal.HostStretches

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]

/-! ## The reference's second copy of the index prelude -/

theorem src_again (x1 : (⟨S2x600000, .i32⟩ : BufTy).Contents (Elt F)) : val_main_v51 (F := F) x1 = val_main_v3 (F := F) x1 := rfl
theorem dst_again (x1 : (⟨S2x600000, .i32⟩ : BufTy).Contents (Elt F)) : val_main_v54 (F := F) x1 = val_main_v6 (F := F) x1 := rfl
theorem weight_again (x1 : (⟨S2x600000, .i32⟩ : BufTy).Contents (Elt F)) : val_main_v77 (F := F) x1 = val_main_v29 (F := F) x1 := rfl

variable (X : Valuation τ sig (Elt F))

/-! ## Before the first launch -/

/-- The source indices: the first row of the edge list, then 0 … N-1. -/
theorem prelude_src (x1 : (⟨S2x600000, .i32⟩ : BufTy).Contents (Elt F)) (h1 : X (Proc.devRef .tc main_arg1) = x1) :
    after hostOps0_2 (after hostOps0_1 (after hostOps0 X)) (Proc.devRef .tc main_v3) = val_main_v3 (F := F) x1 := by
  subst h1
  dsimp only [hostOps0, hostOps0_1, hostOps0_2]
  after_results_simp <;> rfl

/-- The target indices: the second row of the edge list, then 0 … N-1. -/
theorem prelude_dst (x1 : (⟨S2x600000, .i32⟩ : BufTy).Contents (Elt F)) (h1 : X (Proc.devRef .tc main_arg1) = x1) :
    after hostOps0_2 (after hostOps0_1 (after hostOps0 X)) (Proc.devRef .tc main_v6) = val_main_v6 (F := F) x1 := by
  subst h1
  dsimp only [hostOps0, hostOps0_1, hostOps0_2]
  after_results_simp <;> rfl

/-- The per-edge weight dinv[src] · dinv[dst]. -/
theorem prelude_weight (x1 : (⟨S2x600000, .i32⟩ : BufTy).Contents (Elt F)) (h1 : X (Proc.devRef .tc main_arg1) = x1) :
    after hostOps0_2 (after hostOps0_1 (after hostOps0 X)) (Proc.devRef .tc main_v29) = val_main_v29 (F := F) x1 := by
  subst h1
  dsimp only [hostOps0, hostOps0_1, hostOps0_2]
  after_results_simp <;> rfl

/-- The prelude writes none of the float arguments. -/
theorem prelude_keeps_arg0 : after hostOps0_2 (after hostOps0_1 (after hostOps0 X)) (Proc.devRef .tc main_arg0) = X (Proc.devRef .tc main_arg0) := by
  dsimp only [hostOps0, hostOps0_1, hostOps0_2]
  after_results_simp <;> rfl
theorem prelude_keeps_arg2 : after hostOps0_2 (after hostOps0_1 (after hostOps0 X)) (Proc.devRef .tc main_arg2) = X (Proc.devRef .tc main_arg2) := by
  dsimp only [hostOps0, hostOps0_1, hostOps0_2]
  after_results_simp <;> rfl
theorem prelude_keeps_arg3 : after hostOps0_2 (after hostOps0_1 (after hostOps0 X)) (Proc.devRef .tc main_arg3) = X (Proc.devRef .tc main_arg3) := by
  dsimp only [hostOps0, hostOps0_1, hostOps0_2]
  after_results_simp <;> rfl
theorem prelude_keeps_arg4 : after hostOps0_2 (after hostOps0_1 (after hostOps0 X)) (Proc.devRef .tc main_arg4) = X (Proc.devRef .tc main_arg4) := by
  dsimp only [hostOps0, hostOps0_1, hostOps0_2]
  after_results_simp <;> rfl
theorem prelude_keeps_arg5 : after hostOps0_2 (after hostOps0_1 (after hostOps0 X)) (Proc.devRef .tc main_arg5) = X (Proc.devRef .tc main_arg5) := by
  dsimp only [hostOps0, hostOps0_1, hostOps0_2]
  after_results_simp <;> rfl

/-! ## Between the first linear launch and the first bias launch -/

/-- Gather at the sources, scale by the weights, add into the target rows: the reference's aggregation of the
    first layer, when the stretch finds the reference's product, indices and weights. -/
theorem first_aggregate (x0 : (⟨S100000x128, .f32⟩ : BufTy).Contents (Elt F)) (x1 : (⟨S2x600000, .i32⟩ : BufTy).Contents (Elt F))
    (x2 : (⟨S128x256, .f32⟩ : BufTy).Contents (Elt F))
    (h30 : X (Proc.devRef .tc main_v30) = val_main_v30 (F := F) x0 x2) (h3 : X (Proc.devRef .tc main_v3) = val_main_v3 (F := F) x1)
    (h6 : X (Proc.devRef .tc main_v6) = val_main_v6 (F := F) x1) (h29 : X (Proc.devRef .tc main_v29) = val_main_v29 (F := F) x1) :
    after hostOps1 X (Proc.devRef .tc main_v43) = val_main_v43 (F := F) x0 x1 x2 := by
  dsimp only [hostOps1]
  after_results_simp
  rw [h30, h3, h6, h29]
  rfl

/-- The first bias vector viewed as one row. -/
theorem first_bias_row : after hostOps1 X (Proc.devRef .tc main_v44) = shapeCast S1x256 (X (Proc.devRef .tc main_arg3)) shapeCasts_S256_S1x256 := by
  dsimp only [hostOps1]
  after_results_simp <;> rfl

theorem first_keeps_v3 : after hostOps1 X (Proc.devRef .tc main_v3) = X (Proc.devRef .tc main_v3) := by
  dsimp only [hostOps1]
  after_results_simp <;> rfl
theorem first_keeps_v6 : after hostOps1 X (Proc.devRef .tc main_v6) = X (Proc.devRef .tc main_v6) := by
  dsimp only [hostOps1]
  after_results_simp <;> rfl
theorem first_keeps_v29 : after hostOps1 X (Proc.devRef .tc main_v29) = X (Proc.devRef .tc main_v29) := by
  dsimp only [hostOps1]
  after_results_simp <;> rfl
theorem first_keeps_arg4 : after hostOps1 X (Proc.devRef .tc main_arg4) = X (Proc.devRef .tc main_arg4) := by
  dsimp only [hostOps1]
  after_results_simp <;> rfl
theorem first_keeps_arg5 : after hostOps1 X (Proc.devRef .tc main_arg5) = X (Proc.devRef .tc main_arg5) := by
  dsimp only [hostOps1]
  after_results_simp <;> rfl

/-! ## Between the second linear launch and the second bias launch -/

/-- The same aggregation over the second layer's product: the reference's, whose own copies of the indices and the
    weights are the first layer's. -/
theorem second_aggregate (x0 : (⟨S100000x128, .f32⟩ : BufTy).Contents (Elt F)) (x1 : (⟨S2x600000, .i32⟩ : BufTy).Contents (Elt F))
    (x2 : (⟨S128x256, .f32⟩ : BufTy).Contents (Elt F)) (x3 : (⟨S256, .f32⟩ : BufTy).Contents (Elt F)) (x4 : (⟨S256x128, .f32⟩ : BufTy).Contents (Elt F))
    (h46 : X (Proc.devRef .tc main_v46) = val_main_v78 (F := F) x0 x1 x2 x3 x4) (h3 : X (Proc.devRef .tc main_v3) = val_main_v3 (F := F) x1)
    (h6 : X (Proc.devRef .tc main_v6) = val_main_v6 (F := F) x1) (h29 : X (Proc.devRef .tc main_v29) = val_main_v29 (F := F) x1) :
    after hostOps3 X (Proc.devRef .tc main_v59) = val_main_v91 (F := F) x0 x1 x2 x3 x4 := by
  dsimp only [hostOps3]
  after_results_simp
  rw [h46, h3, h6, h29, ← src_again, ← dst_again, ← weight_again]
  rfl

/-- The second bias vector viewed as one row. -/
theorem second_bias_row : after hostOps3 X (Proc.devRef .tc main_v60) = shapeCast S1x128 (X (Proc.devRef .tc main_arg5)) shapeCasts_S128_S1x128 := by
  dsimp only [hostOps3]
  after_results_simp <;> rfl

end Cert.KernelIdeal.HostStretches

end
-- ==== Proof.LinearA.lean ====
/-
  The first linear layer's launch, read as a value: x[100000,128] times W1[128,256].
  The grid has twenty points. Point t stages rows 5000·t … 5000·t + 4999 of the input array and the whole weight
  matrix, and writes rows 5000·t … 5000·t + 4999 of the output array. Inside a block the body's matrix product into
  a zero accumulator is, over the extended reals, the plain sum over the contraction axis, and its conversions to
  the narrower float format are the identity there. So the block written at point t is the restriction to those rows
  of the full product of the two arrays; the twenty blocks tile the output array, which therefore ends at the full
  product — entry (r, c) the sum, over the 128 contraction indices.
-/
import proofs.«108220_j42279658062345_1_alg».proof.Proof.Gen.KernelIdeal.Frame
import proofs.«108220_j42279658062345_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.LinearA

open Idealize.ShloMosaic Idealize.ShloMosaic.TcCoe Idealize.SL.Sem
open Idealize.ShloMosaic.Pipeline (Dat Cfg Window)
open Cert.KernelIdeal Cert.KernelIdeal.Gen

/-! ## The block's product at an index -/

/-- The left operand's row coordinate is the output's row. -/
theorem lhs_blk_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- The left operand's column coordinate is the contraction index. -/
theorem lhs_blk_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- The right operand's row coordinate is the contraction index. -/
theorem rhs_blk_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- The right operand's column coordinate is the output's column. -/
theorem rhs_blk_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (row of i, k) of the input block. -/
abbrev lrow (i : S5000x256.Idx) (k : Fin 128) : S5000x128.Idx := fun a => match a with
  | ⟨0, _⟩ => ⟨(i 0).val, (i 0).isLt⟩
  | ⟨1, _⟩ => ⟨k.val, k.isLt⟩
/-- Entry (k, column of i) of the weight matrix. -/
abbrev rcol (i : S5000x256.Idx) (k : Fin 128) : S128x256.Idx := fun a => match a with
  | ⟨0, _⟩ => ⟨k.val, k.isLt⟩
  | ⟨1, _⟩ => ⟨(i 1).val, (i 1).isLt⟩

/-- Over the extended reals the body's stored value at (r, c) is the sum over k of x(r, k) · w(k, c): the narrowing
    conversions are the identity and the accumulator is zero. -/
theorem block_product (x : Vec Ideal S5000x128 .f32) (w : Vec Ideal S128x256 .f32) (i : S5000x256.Idx) :
    k0_pay1 (F := Ideal) x w i = ∑ k : Fin 128, x (lrow i k) * w (rcol i k) := by
  unfold k0_pay1
  simp only [matmul, shapeCast_self]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx i ((ValueIdx.contrEquiv1 dot_S5000x128_S128x256_S5000x256_1_0_0_1_n_n 128 rfl rfl).symm k) = lrow i k := funext fun a => Fin.ext (by
    match a with
    | ⟨0, _⟩ => exact lhs_blk_0 _ _
    | ⟨1, _⟩ => exact (lhs_blk_1 _ _).trans hk)
  have er : dot_S5000x128_S128x256_S5000x256_1_0_0_1_n_n.rhsIdx i ((ValueIdx.contrEquiv1 dot_S5000x128_S128x256_S5000x256_1_0_0_1_n_n 128 rfl rfl).symm k) = rcol i k := funext fun a => Fin.ext (by
    match a with
    | ⟨0, _⟩ => exact (rhs_blk_0 _ _).trans hk
    | ⟨1, _⟩ => exact rhs_blk_1 _ _)
  rw [ValueIdx.truncf_apply, ValueIdx.truncf_apply, el, er]

/-! ## From the blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The input array as the launch finds it. -/
abbrev lhsArr (c : Dev nD) : Vec Ideal S100000x128 .f32 := V c main_arg0
/-- The weight matrix as the launch finds it. -/
abbrev rhsArr (c : Dev nD) : Vec Ideal S128x256 .f32 := V c main_arg2

/-- The full product of the two arrays the launch finds, entry by entry: the sum over the contraction index. -/
abbrev product (c : Dev nD) : Vec Ideal S100000x256 .f32 :=
  fun i => ∑ k : Fin 128, lhsArr V c (Cert.ReferenceIdeal.ReadP.lidx_main_v30 i k) * rhsArr V c (Cert.ReferenceIdeal.ReadP.ridx_main_v30 i k)

/-- The printed index maps over the grid: the input and the output move down the rows together, one block a point;
    the weight matrix stays. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem index_onto : ∀ q : Fin 20, ∃ t : Fin cfg0.N, win0_2.index t = ![q.val, 0] :=
  (by decide +kernel : ∀ q : Fin 20, ∃ t : Fin grid0.N, win0_2.index t = ![q.val, 0])

/-- What point t writes back is its block of rows of the full product. -/
theorem flushed_block (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x256) offsets_zero]
  obtain ⟨e0, e1, e2, e3, e4⟩ := index_facts t
  funext j
  refine (block_product (iblk0 V c 0 t) (iblk0 V c 1 t) j).trans ?_
  show _ = ∑ k : Fin 128, lhsArr V c (Cert.ReferenceIdeal.ReadP.lidx_main_v30 (((cfg0.win 2).blk t).view.emb j) k) * rhsArr V c (Cert.ReferenceIdeal.ReadP.ridx_main_v30 (((cfg0.win 2).blk t).view.emb j) k)
  refine Finset.sum_congr rfl fun k _ => ?_
  have h0 : ((cfg0.win 0).blk t).view.emb (lrow j k) = Cert.ReferenceIdeal.ReadP.lidx_main_v30 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rcol j k) = Cert.ReferenceIdeal.ReadP.ridx_main_v30 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  show lhsArr V c (((cfg0.win 0).blk t).view.emb (lrow j k)) * rhsArr V c (((cfg0.win 1).blk t).view.emb (rcol j k)) = _
  rw [h0, h1]

/-- An index of the output array lies in point t's block iff each coordinate lies in the block's range. -/
theorem mem_block (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Row r lies in the block of point r / 5000: the blocks tile the array. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the launch the output array holds the full product of the two arrays the launch found. -/
theorem final (c : Dev nD) : (dat0 V c).arrAt 2 cfg0.N = product V c :=
  (dat0 V c).arrAt_eq_of_cover 2 (product V c) (fun t _ => flushed_block V c t) covered

end Cert.KernelIdeal.LinearA

end
-- ==== Proof.LinearB.lean ====
/-
  The second linear layer's launch, read as a value: h[100000,256] times W2[256,128].
  The grid has twenty points. Point t stages rows 5000·t … 5000·t + 4999 of the input array and the whole weight
  matrix, and writes rows 5000·t … 5000·t + 4999 of the output array. Inside a block the body's matrix product into
  a zero accumulator is, over the extended reals, the plain sum over the contraction axis, and its conversions to
  the narrower float format are the identity there. So the block written at point t is the restriction to those rows
  of the full product of the two arrays; the twenty blocks tile the output array, which therefore ends at the full
  product — entry (r, c) the sum, over the 256 contraction indices.
-/
import proofs.«108220_j42279658062345_1_alg».proof.Proof.Gen.KernelIdeal.Frame
import proofs.«108220_j42279658062345_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.LinearB

open Idealize.ShloMosaic Idealize.ShloMosaic.TcCoe Idealize.SL.Sem
open Idealize.ShloMosaic.Pipeline (Dat Cfg Window)
open Cert.KernelIdeal Cert.KernelIdeal.Gen

/-! ## The block's product at an index -/

/-- The left operand's row coordinate is the output's row. -/
theorem lhs_blk_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the contraction index. -/
theorem lhs_blk_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row coordinate is the contraction index. -/
theorem rhs_blk_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column coordinate is the output's column. -/
theorem rhs_blk_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (row of i, k) of the input block. -/
abbrev lrow (i : S5000x128.Idx) (k : Fin 256) : S5000x256.Idx := fun a => match a with
  | ⟨0, _⟩ => ⟨(i 0).val, (i 0).isLt⟩
  | ⟨1, _⟩ => ⟨k.val, k.isLt⟩
/-- Entry (k, column of i) of the weight matrix. -/
abbrev rcol (i : S5000x128.Idx) (k : Fin 256) : S256x128.Idx := fun a => match a with
  | ⟨0, _⟩ => ⟨k.val, k.isLt⟩
  | ⟨1, _⟩ => ⟨(i 1).val, (i 1).isLt⟩

/-- Over the extended reals the body's stored value at (r, c) is the sum over k of x(r, k) · w(k, c): the narrowing
    conversions are the identity and the accumulator is zero. -/
theorem block_product (x : Vec Ideal S5000x256 .f32) (w : Vec Ideal S256x128 .f32) (i : S5000x128.Idx) :
    k2_pay1 (F := Ideal) x w i = ∑ k : Fin 256, x (lrow i k) * w (rcol i k) := by
  unfold k2_pay1
  simp only [matmul, shapeCast_self]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx i ((ValueIdx.contrEquiv1 dot_S5000x256_S256x128_S5000x128_1_0_0_1_n_n 256 rfl rfl).symm k) = lrow i k := funext fun a => Fin.ext (by
    match a with
    | ⟨0, _⟩ => exact lhs_blk_0 _ _
    | ⟨1, _⟩ => exact (lhs_blk_1 _ _).trans hk)
  have er : dot_S5000x256_S256x128_S5000x128_1_0_0_1_n_n.rhsIdx i ((ValueIdx.contrEquiv1 dot_S5000x256_S256x128_S5000x128_1_0_0_1_n_n 256 rfl rfl).symm k) = rcol i k := funext fun a => Fin.ext (by
    match a with
    | ⟨0, _⟩ => exact (rhs_blk_0 _ _).trans hk
    | ⟨1, _⟩ => exact rhs_blk_1 _ _)
  rw [ValueIdx.truncf_apply, ValueIdx.truncf_apply, el, er]

/-! ## From the blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The input array as the launch finds it. -/
abbrev lhsArr (c : Dev nD) : Vec Ideal S100000x256 .f32 := V c main_v45
/-- The weight matrix as the launch finds it. -/
abbrev rhsArr (c : Dev nD) : Vec Ideal S256x128 .f32 := V c main_arg4

/-- The full product of the two arrays the launch finds, entry by entry: the sum over the contraction index. -/
abbrev product (c : Dev nD) : Vec Ideal S100000x128 .f32 :=
  fun i => ∑ k : Fin 256, lhsArr V c (Cert.ReferenceIdeal.ReadP.lidx_main_v78 i k) * rhsArr V c (Cert.ReferenceIdeal.ReadP.ridx_main_v78 i k)

/-- The printed index maps over the grid: the input and the output move down the rows together, one block a point;
    the weight matrix stays. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every block of rows is some point's. -/
theorem index_onto : ∀ q : Fin 20, ∃ t : Fin cfg2.N, win2_2.index t = ![q.val, 0] :=
  (by decide +kernel : ∀ q : Fin 20, ∃ t : Fin grid2.N, win2_2.index t = ![q.val, 0])

/-- What point t writes back is its block of rows of the full product. -/
theorem flushed_block (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero offsets_zero]
  simp only [View.ld_unit_zero (S := S5000x256) offsets_zero, View.ld_unit_zero (S := S256x128) offsets_zero]
  obtain ⟨e0, e1, e2, e3, e4⟩ := index_facts t
  funext j
  refine (block_product (iblk2 V c 0 t) (iblk2 V c 1 t) j).trans ?_
  show _ = ∑ k : Fin 256, lhsArr V c (Cert.ReferenceIdeal.ReadP.lidx_main_v78 (((cfg2.win 2).blk t).view.emb j) k) * rhsArr V c (Cert.ReferenceIdeal.ReadP.ridx_main_v78 (((cfg2.win 2).blk t).view.emb j) k)
  refine Finset.sum_congr rfl fun k _ => ?_
  have h0 : ((cfg2.win 0).blk t).view.emb (lrow j k) = Cert.ReferenceIdeal.ReadP.lidx_main_v78 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have h1 : ((cfg2.win 1).blk t).view.emb (rcol j k) = Cert.ReferenceIdeal.ReadP.ridx_main_v78 (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  show lhsArr V c (((cfg2.win 0).blk t).view.emb (lrow j k)) * rhsArr V c (((cfg2.win 1).blk t).view.emb (rcol j k)) = _
  rw [h0, h1]

/-- An index of the output array lies in point t's block iff each coordinate lies in the block's range. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r lies in the block of point r / 5000: the blocks tile the array. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the launch the output array holds the full product of the two arrays the launch found. -/
theorem final (c : Dev nD) : (dat2 V c).arrAt 2 cfg2.N = product V c :=
  (dat2 V c).arrAt_eq_of_cover 2 (product V c) (fun t _ => flushed_block V c t) covered

end Cert.KernelIdeal.LinearB

end
-- ==== Proof.RectifyA.lean ====
/-
  The first bias-and-rectify launch, read as a value, over [100000,256].
  The grid has twenty points. Point t stages rows 5000·t … 5000·t + 4999 of the aggregated array and the one-row
  bias, and writes the same rows of the output array. The body adds the bias row to every row of the block and
  takes the maximum with zero, entry by entry. So the block written at point t is the restriction to those rows of
  the entrywise function  max (a(r, c) + b(0, c), 0)  of the two arrays; the twenty blocks tile the output array,
  which therefore ends at that function of the arrays the launch found.
-/
import proofs.«108220_j42279658062345_1_alg».proof.Proof.Gen.KernelIdeal.Frame
import proofs.«108220_j42279658062345_1_alg».proof.Proof.RefRead
import Idealize.ShloMosaic.Lib.Pipeline.Value
import Idealize.ShloMosaic.Lib.ValueIdx

set_option maxRecDepth 16384

noncomputable section

namespace Cert.KernelIdeal.RectifyA

open Idealize.ShloMosaic Idealize.ShloMosaic.TcCoe Idealize.SL.Sem
open Idealize.ShloMosaic.Pipeline (Dat Cfg Window)
open Cert.KernelIdeal Cert.KernelIdeal.Gen

/-! ## The block's value at an index -/

/-- The bias row's entry above column c of the block. -/
abbrev brow (j : S5000x256.Idx) : S1x256.Idx := fun a => match a with
  | ⟨0, _⟩ => ⟨0, Nat.one_pos⟩
  | ⟨1, _⟩ => ⟨(j 1).val, (j 1).isLt⟩

/-- Over the extended reals the body's stored value at (r, c) is max (x(r, c) + b(0, c), 0). -/
theorem block_value (x : Vec Ideal S5000x256 .f32) (b : Vec Ideal S1x256 .f32) (j : S5000x256.Idx) :
    k1_pay1 (F := Ideal) x b j = max (x j + b (brow j)) (Ideal.ofBits .f32 0x00000000#32) := by
  unfold k1_pay1
  simp only [shapeCast_self]
  show max (x j + broadcastTo S5000x256 b broadcasts_S1x256_S5000x256 j) _ = _
  rw [broadcastTo_apply b broadcasts_S1x256_S5000x256 j (brow j) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])]
  rfl

/-! ## From the blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The bias row's entry above column c of the array. -/
abbrev arow (i : S100000x256.Idx) : S1x256.Idx := fun a => match a with
  | ⟨0, _⟩ => ⟨0, Nat.one_pos⟩
  | ⟨1, _⟩ => ⟨(i 1).val, (i 1).isLt⟩

/-- The aggregated array as the launch finds it. -/
abbrev inArr (c : Dev nD) : Vec Ideal S100000x256 .f32 := V c main_v43
/-- The bias row as the launch finds it. -/
abbrev rowArr (c : Dev nD) : Vec Ideal S1x256 .f32 := V c main_v44

/-- The entrywise function of the two arrays the launch finds: bias added along the rows, then the maximum with zero. -/
abbrev rectified (c : Dev nD) : Vec Ideal S100000x256 .f32 :=
  fun i => max (inArr V c i + rowArr V c (arow i)) (Ideal.ofBits .f32 0x00000000#32)

/-- The printed index maps over the grid: the input and the output move down the rows together, one block a point;
    the bias row stays. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every block of rows is some point's. -/
theorem index_onto : ∀ q : Fin 20, ∃ t : Fin cfg1.N, win1_2.index t = ![q.val, 0] :=
  (by decide +kernel : ∀ q : Fin 20, ∃ t : Fin grid1.N, win1_2.index t = ![q.val, 0])

/-- What point t writes back is its block of rows of the entrywise function. -/
theorem flushed_block (c : Dev nD) (t : Fin cfg1.N) :
    (dat1 V c).flushed 2 t = ((cfg1.win 2).blk t).view.read (Elt Ideal) (rectified V c) := by
  show (cfg1.win 2).cut (grid1.coords t) ((dat1 V c).after 2 t) = _
  rw [after1_2]
  unfold out1_2
  rw [View.canon_unit_zero offsets_zero]
  simp only [View.ld_unit_zero (S := S5000x256) offsets_zero, View.ld_unit_zero (S := S1x256) offsets_zero]
  obtain ⟨e0, e1, e2, e3, e4⟩ := index_facts t
  funext j
  refine (block_value (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb (brow j) = arow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  show max (inArr V c (((cfg1.win 0).blk t).view.emb j) + rowArr V c (((cfg1.win 1).blk t).view.emb (brow j))) _
    = max (inArr V c (((cfg1.win 2).blk t).view.emb j) + rowArr V c (arow (((cfg1.win 2).blk t).view.emb j))) _
  rw [h0, h1]

/-- An index of the output array lies in point t's block iff each coordinate lies in the block's range. -/
theorem mem_block (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v45).slice (win1_2.rect t)).set ↔ _
  rw [View.set_slice_whole, Rect.mem_set_unit]
  exact Iff.rfl

/-- Row r lies in the block of point r / 5000: the blocks tile the array. -/
theorem covered (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the launch the output array holds the entrywise function of the two arrays the launch found. -/
theorem final (c : Dev nD) : (dat1 V c).arrAt 2 cfg1.N = rectified V c :=
  (dat1 V c).arrAt_eq_of_cover 2 (rectified V c) (fun t _ => flushed_block V c t) covered

end Cert.KernelIdeal.RectifyA

end
-- ==== Proof.RectifyB.lean ====
/-
  The second bias-and-rectify launch, read as a value, over [100000,128].
  The grid has twenty points. Point t stages rows 5000·t … 5000·t + 4999 of the aggregated array and the one-row
  bias, and writes the same rows of the output array. The body adds the bias row to every row of the block and
  takes the maximum with zero, entry by entry. So the block written at point t is the restriction to those rows of
  the entrywise function  max (a(r, c) + b(0, c), 0)  of the two arrays; the twenty blocks tile the output array,
  which therefore ends at that function of the arrays the launch found.
-/
import proofs.«108220_j42279658062345_1_alg».proof.Proof.Gen.KernelIdeal.Frame
import proofs.«108220_j42279658062345_1_alg».proof.Proof.RefRead
import Idealize.ShloMosaic.Lib.Pipeline.Value
import Idealize.ShloMosaic.Lib.ValueIdx

set_option maxRecDepth 16384

noncomputable section

namespace Cert.KernelIdeal.RectifyB

open Idealize.ShloMosaic Idealize.ShloMosaic.TcCoe Idealize.SL.Sem
open Idealize.ShloMosaic.Pipeline (Dat Cfg Window)
open Cert.KernelIdeal Cert.KernelIdeal.Gen

/-! ## The block's value at an index -/

/-- The bias row's entry above column c of the block. -/
abbrev brow (j : S5000x128.Idx) : S1x128.Idx := fun a => match a with
  | ⟨0, _⟩ => ⟨0, Nat.one_pos⟩
  | ⟨1, _⟩ => ⟨(j 1).val, (j 1).isLt⟩

/-- Over the extended reals the body's stored value at (r, c) is max (x(r, c) + b(0, c), 0). -/
theorem block_value (x : Vec Ideal S5000x128 .f32) (b : Vec Ideal S1x128 .f32) (j : S5000x128.Idx) :
    k3_pay1 (F := Ideal) x b j = max (x j + b (brow j)) (Ideal.ofBits .f32 0x00000000#32) := by
  unfold k3_pay1
  simp only [shapeCast_self]
  show max (x j + broadcastTo S5000x128 b broadcasts_S1x128_S5000x128 j) _ = _
  rw [broadcastTo_apply b broadcasts_S1x128_S5000x128 j (brow j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rfl

/-! ## From the blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The bias row's entry above column c of the array. -/
abbrev arow (i : S100000x128.Idx) : S1x128.Idx := fun a => match a with
  | ⟨0, _⟩ => ⟨0, Nat.one_pos⟩
  | ⟨1, _⟩ => ⟨(i 1).val, (i 1).isLt⟩

/-- The aggregated array as the launch finds it. -/
abbrev inArr (c : Dev nD) : Vec Ideal S100000x128 .f32 := V c main_v59
/-- The bias row as the launch finds it. -/
abbrev rowArr (c : Dev nD) : Vec Ideal S1x128 .f32 := V c main_v60

/-- The entrywise function of the two arrays the launch finds: bias added along the rows, then the maximum with zero. -/
abbrev rectified (c : Dev nD) : Vec Ideal S100000x128 .f32 :=
  fun i => max (inArr V c i + rowArr V c (arow i)) (Ideal.ofBits .f32 0x00000000#32)

/-- The printed index maps over the grid: the input and the output move down the rows together, one block a point;
    the bias row stays. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every block of rows is some point's. -/
theorem index_onto : ∀ q : Fin 20, ∃ t : Fin cfg3.N, win3_2.index t = ![q.val, 0] :=
  (by decide +kernel : ∀ q : Fin 20, ∃ t : Fin grid3.N, win3_2.index t = ![q.val, 0])

/-- What point t writes back is its block of rows of the entrywise function. -/
theorem flushed_block (c : Dev nD) (t : Fin cfg3.N) :
    (dat3 V c).flushed 2 t = ((cfg3.win 2).blk t).view.read (Elt Ideal) (rectified V c) := by
  show (cfg3.win 2).cut (grid3.coords t) ((dat3 V c).after 2 t) = _
  rw [after3_2]
  unfold out3_2
  rw [View.canon_unit_zero offsets_zero]
  simp only [View.ld_unit_zero (S := S5000x128) offsets_zero, View.ld_unit_zero (S := S1x128) offsets_zero]
  obtain ⟨e0, e1, e2, e3, e4⟩ := index_facts t
  funext j
  refine (block_value (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (brow j) = arow (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  show max (inArr V c (((cfg3.win 0).blk t).view.emb j) + rowArr V c (((cfg3.win 1).blk t).view.emb (brow j))) _
    = max (inArr V c (((cfg3.win 2).blk t).view.emb j) + rowArr V c (arow (((cfg3.win 2).blk t).view.emb j))) _
  rw [h0, h1]

/-- An index of the output array lies in point t's block iff each coordinate lies in the block's range. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r lies in the block of point r / 5000: the blocks tile the array. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the launch the output array holds the entrywise function of the two arrays the launch found. -/
theorem final (c : Dev nD) : (dat3 V c).arrAt 2 cfg3.N = rectified V c :=
  (dat3 V c).arrAt_eq_of_cover 2 (rectified V c) (fun t _ => flushed_block V c t) covered

end Cert.KernelIdeal.RectifyB

end
-- ==== Proof.Boundaries.lean ====
/-
  What the kernel program's buffers hold at each boundary between its segments, traced from the launch memory.
  The index vectors and the weights are built before the first launch and no later segment writes them. The first
  linear launch leaves the product x · W1; the host stretch after it leaves the weighted aggregation of that product's
  rows and the first bias as one row; the first bias launch leaves  max (aggregate + b1, 0) ; the second linear launch
  leaves that array times W2; the next host stretch aggregates again and lays out the second bias; the last launch
  leaves  max (aggregate + b2, 0)  in the result array. At every boundary the array is the reference's stage of the
  same meaning, as a function of the six argument arrays: the host stretches are the reference's own operations, a
  linear launch's row blocks assemble to the reference's dot_general (equal sums, entry by entry), and a bias launch's
  row blocks assemble to the reference's broadcast, add and maximum (equal entry by entry; a vector viewed as one
  row and a vector broadcast to one row have the same entries).
-/
import proofs.«108220_j42279658062345_1_alg».proof.Proof.Gen.KernelIdeal.Frame
import proofs.«108220_j42279658062345_1_alg».proof.Proof.RefRead
import proofs.«108220_j42279658062345_1_alg».proof.Proof.HostStretches
import proofs.«108220_j42279658062345_1_alg».proof.Proof.LinearA
import proofs.«108220_j42279658062345_1_alg».proof.Proof.LinearB
import proofs.«108220_j42279658062345_1_alg».proof.Proof.RectifyA
import proofs.«108220_j42279658062345_1_alg».proof.Proof.RectifyB

set_option maxRecDepth 16384

noncomputable section

namespace Cert.KernelIdeal.Boundaries

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg)

/-- The argument arrays as launched: features, edge list, first weights and bias, second weights and bias. -/
abbrev x0 (c : Dev nD) : Vec Ideal S100000x128 .f32 := m ((c : Thread nD τ).loc main_arg0)
abbrev x1 (c : Dev nD) : Vec Ideal S2x600000 .i32 := m ((c : Thread nD τ).loc main_arg1)
abbrev x2 (c : Dev nD) : Vec Ideal S128x256 .f32 := m ((c : Thread nD τ).loc main_arg2)
abbrev x3 (c : Dev nD) : Vec Ideal S256 .f32 := m ((c : Thread nD τ).loc main_arg3)
abbrev x4 (c : Dev nD) : Vec Ideal S256x128 .f32 := m ((c : Thread nD τ).loc main_arg4)
abbrev x5 (c : Dev nD) : Vec Ideal S128 .f32 := m ((c : Thread nD τ).loc main_arg5)

/-! ## A vector viewed as one row -/

/-- Entry (0, c) of a 256-vector viewed as one row is entry c: the entry the reference's two broadcasts read. -/
theorem row_entry_256 (b : (⟨S256, .f32⟩ : BufTy).Contents (Elt Ideal)) (i : S100000x256.Idx) :
    shapeCast S1x256 b shapeCasts_S256_S1x256 (RectifyA.arow i) = b (idx_main_v44 (idx_main_v45 i)) := by
  refine (shapeCast_addUnit_apply ![256] b shapeCasts_S256_S1x256 (RectifyA.arow i)).trans (congrArg b ?_)
  funext a; apply Fin.ext
  match a with
  | ⟨0, _⟩ => rfl

/-- The same for a 128-vector. -/
theorem row_entry_128 (b : (⟨S128, .f32⟩ : BufTy).Contents (Elt Ideal)) (i : S100000x128.Idx) :
    shapeCast S1x128 b shapeCasts_S128_S1x128 (RectifyB.arow i) = b (idx_main_v92 (idx_main_v93 i)) := by
  refine (shapeCast_addUnit_apply ![128] b shapeCasts_S128_S1x128 (RectifyB.arow i)).trans (congrArg b ?_)
  funext a; apply Fin.ext
  match a with
  | ⟨0, _⟩ => rfl

/-! ## Entering the first linear launch -/

theorem entry0_src (c : Dev nD) : W3 m ρ c (Proc.devRef .tc main_v3) = val_main_v3 (F := Ideal) (x1 m c) :=
  HostStretches.prelude_src (W0 m ρ c) _ rfl
theorem entry0_dst (c : Dev nD) : W3 m ρ c (Proc.devRef .tc main_v6) = val_main_v6 (F := Ideal) (x1 m c) :=
  HostStretches.prelude_dst (W0 m ρ c) _ rfl
theorem entry0_weight (c : Dev nD) : W3 m ρ c (Proc.devRef .tc main_v29) = val_main_v29 (F := Ideal) (x1 m c) :=
  HostStretches.prelude_weight (W0 m ρ c) _ rfl
theorem entry0_arg0 (c : Dev nD) : W3 m ρ c (Proc.devRef .tc main_arg0) = x0 m c := HostStretches.prelude_keeps_arg0 (W0 m ρ c)
theorem entry0_arg2 (c : Dev nD) : W3 m ρ c (Proc.devRef .tc main_arg2) = x2 m c := HostStretches.prelude_keeps_arg2 (W0 m ρ c)
theorem entry0_arg3 (c : Dev nD) : W3 m ρ c (Proc.devRef .tc main_arg3) = x3 m c := HostStretches.prelude_keeps_arg3 (W0 m ρ c)
theorem entry0_arg4 (c : Dev nD) : W3 m ρ c (Proc.devRef .tc main_arg4) = x4 m c := HostStretches.prelude_keeps_arg4 (W0 m ρ c)
theorem entry0_arg5 (c : Dev nD) : W3 m ρ c (Proc.devRef .tc main_arg5) = x5 m c := HostStretches.prelude_keeps_arg5 (W0 m ρ c)

/-! ## Leaving the first linear launch -/

/-- The launch's output array holds x · W1, the reference's first dot_general. -/
theorem exit0_product (c : Dev nD) : W4 m ρ c (Proc.devRef .tc main_v30) = val_main_v30 (F := Ideal) (x0 m c) (x2 m c) := by
  refine (W4_arr m ρ c 2).trans ((LinearA.final (V3 m ρ) c).trans ?_)
  funext i
  rw [val_main_v30_apply]
  show ∑ k : Fin 128, LinearA.lhsArr (V3 m ρ) c (lidx_main_v30 i k) * LinearA.rhsArr (V3 m ρ) c (ridx_main_v30 i k) = _
  rw [show LinearA.lhsArr (V3 m ρ) c = x0 m c from entry0_arg0 m ρ c, show LinearA.rhsArr (V3 m ρ) c = x2 m c from entry0_arg2 m ρ c]

/-! ## Entering the first bias launch -/

theorem entry1_aggregate (c : Dev nD) : W5 m ρ c (Proc.devRef .tc main_v43) = val_main_v43 (F := Ideal) (x0 m c) (x1 m c) (x2 m c) :=
  HostStretches.first_aggregate (W4 m ρ c) _ _ _ (exit0_product m ρ c)
    ((W4_of_ne m ρ c main_v3 (by decide)).trans (entry0_src m ρ c))
    ((W4_of_ne m ρ c main_v6 (by decide)).trans (entry0_dst m ρ c))
    ((W4_of_ne m ρ c main_v29 (by decide)).trans (entry0_weight m ρ c))

theorem entry1_bias (c : Dev nD) : W5 m ρ c (Proc.devRef .tc main_v44) = shapeCast S1x256 (x3 m c) shapeCasts_S256_S1x256 :=
  (HostStretches.first_bias_row (W4 m ρ c)).trans
    (congrArg (fun b => shapeCast S1x256 b shapeCasts_S256_S1x256) ((W4_of_ne m ρ c main_arg3 (by decide)).trans (entry0_arg3 m ρ c)))

/-! ## Leaving the first bias launch -/

/-- The launch's output array holds max (aggregate + b1, 0), the reference's hidden layer. -/
theorem exit1_hidden (c : Dev nD) : W6 m ρ c (Proc.devRef .tc main_v45) = val_main_v47 (F := Ideal) (x0 m c) (x1 m c) (x2 m c) (x3 m c) := by
  refine (W6_arr m ρ c 2).trans ((RectifyA.final (V5 m ρ) c).trans ?_)
  funext i
  show max (RectifyA.inArr (V5 m ρ) c i + RectifyA.rowArr (V5 m ρ) c (RectifyA.arow i)) (Ideal.ofBits .f32 0x00000000#32) = _
  rw [show RectifyA.inArr (V5 m ρ) c = val_main_v43 (F := Ideal) (x0 m c) (x1 m c) (x2 m c) from entry1_aggregate m ρ c,
    show RectifyA.rowArr (V5 m ρ) c = shapeCast S1x256 (x3 m c) shapeCasts_S256_S1x256 from entry1_bias m ρ c, row_entry_256, val_main_v47_apply, val_main_v46_apply, val_main_v45_apply, val_main_v44_apply,
    val_main_call1_v0_apply, val_main_call1_cst_apply]
  rfl

theorem exit1_src (c : Dev nD) : W6 m ρ c (Proc.devRef .tc main_v3) = val_main_v3 (F := Ideal) (x1 m c) :=
  (W6_of_ne m ρ c main_v3 (by decide)).trans ((HostStretches.first_keeps_v3 (W4 m ρ c)).trans
    ((W4_of_ne m ρ c main_v3 (by decide)).trans (entry0_src m ρ c)))
theorem exit1_dst (c : Dev nD) : W6 m ρ c (Proc.devRef .tc main_v6) = val_main_v6 (F := Ideal) (x1 m c) :=
  (W6_of_ne m ρ c main_v6 (by decide)).trans ((HostStretches.first_keeps_v6 (W4 m ρ c)).trans
    ((W4_of_ne m ρ c main_v6 (by decide)).trans (entry0_dst m ρ c)))
theorem exit1_weight (c : Dev nD) : W6 m ρ c (Proc.devRef .tc main_v29) = val_main_v29 (F := Ideal) (x1 m c) :=
  (W6_of_ne m ρ c main_v29 (by decide)).trans ((HostStretches.first_keeps_v29 (W4 m ρ c)).trans
    ((W4_of_ne m ρ c main_v29 (by decide)).trans (entry0_weight m ρ c)))
theorem exit1_arg4 (c : Dev nD) : W6 m ρ c (Proc.devRef .tc main_arg4) = x4 m c :=
  (W6_of_ne m ρ c main_arg4 (by decide)).trans ((HostStretches.first_keeps_arg4 (W4 m ρ c)).trans
    ((W4_of_ne m ρ c main_arg4 (by decide)).trans (entry0_arg4 m ρ c)))
theorem exit1_arg5 (c : Dev nD) : W6 m ρ c (Proc.devRef .tc main_arg5) = x5 m c :=
  (W6_of_ne m ρ c main_arg5 (by decide)).trans ((HostStretches.first_keeps_arg5 (W4 m ρ c)).trans
    ((W4_of_ne m ρ c main_arg5 (by decide)).trans (entry0_arg5 m ρ c)))

/-! ## Leaving the second linear launch -/

/-- The launch's output array holds hidden · W2, the reference's second dot_general. -/
theorem exit2_product (c : Dev nD) : W7 m ρ c (Proc.devRef .tc main_v46) = val_main_v78 (F := Ideal) (x0 m c) (x1 m c) (x2 m c) (x3 m c) (x4 m c) := by
  refine (W7_arr m ρ c 2).trans ((LinearB.final (V6 m ρ) c).trans ?_)
  funext i
  rw [val_main_v78_apply]
  show ∑ k : Fin 256, LinearB.lhsArr (V6 m ρ) c (lidx_main_v78 i k) * LinearB.rhsArr (V6 m ρ) c (ridx_main_v78 i k) = _
  rw [show LinearB.lhsArr (V6 m ρ) c = val_main_v47 (F := Ideal) (x0 m c) (x1 m c) (x2 m c) (x3 m c) from exit1_hidden m ρ c, show LinearB.rhsArr (V6 m ρ) c = x4 m c from exit1_arg4 m ρ c]

/-! ## Entering the second bias launch -/

theorem entry3_aggregate (c : Dev nD) : W8 m ρ c (Proc.devRef .tc main_v59) = val_main_v91 (F := Ideal) (x0 m c) (x1 m c) (x2 m c) (x3 m c) (x4 m c) :=
  HostStretches.second_aggregate (W7 m ρ c) _ _ _ _ _ (exit2_product m ρ c)
    ((W7_of_ne m ρ c main_v3 (by decide)).trans (exit1_src m ρ c))
    ((W7_of_ne m ρ c main_v6 (by decide)).trans (exit1_dst m ρ c))
    ((W7_of_ne m ρ c main_v29 (by decide)).trans (exit1_weight m ρ c))

theorem entry3_bias (c : Dev nD) : W8 m ρ c (Proc.devRef .tc main_v60) = shapeCast S1x128 (x5 m c) shapeCasts_S128_S1x128 :=
  (HostStretches.second_bias_row (W7 m ρ c)).trans
    (congrArg (fun b => shapeCast S1x128 b shapeCasts_S128_S1x128) ((W7_of_ne m ρ c main_arg5 (by decide)).trans (exit1_arg5 m ρ c)))

/-! ## The result -/

/-- After the last launch the result array holds max (aggregate + b2, 0): the reference's result, as a function of
    the six argument arrays. -/
theorem result (c : Dev nD) : W9 m ρ c (Proc.devRef .tc main_v61) = val_main_v95 (F := Ideal) (x0 m c) (x1 m c) (x2 m c) (x3 m c) (x4 m c) (x5 m c) := by
  refine (W9_arr m ρ c 2).trans ((RectifyB.final (V8 m ρ) c).trans ?_)
  funext i
  show max (RectifyB.inArr (V8 m ρ) c i + RectifyB.rowArr (V8 m ρ) c (RectifyB.arow i)) (Ideal.ofBits .f32 0x00000000#32) = _
  rw [show RectifyB.inArr (V8 m ρ) c = val_main_v91 (F := Ideal) (x0 m c) (x1 m c) (x2 m c) (x3 m c) (x4 m c) from entry3_aggregate m ρ c,
    show RectifyB.rowArr (V8 m ρ) c = shapeCast S1x128 (x5 m c) shapeCasts_S128_S1x128 from entry3_bias m ρ c, row_entry_128, val_main_v95_apply, val_main_v94_apply, val_main_v93_apply, val_main_v92_apply,
    val_main_call3_v0_apply, val_main_call3_cst_apply]
  rfl

end Cert.KernelIdeal.Boundaries

end
-- ==== Proof.lean ====
/-
  The kernel computes a two-layer graph convolution: for each layer a dense product, a weighted aggregation of the
  product's rows along the edges (with one self-loop per node), a bias and a rectifier. Its two dense products and its
  two bias-and-rectify steps are tiled launches over blocks of 5000 rows; the index vectors, the edge weights and the
  aggregations are plain array operations around the launches, the same ones the reference applies.
  Over the extended reals the two programs compute one function of the six argument arrays. A linear launch's blocks
  are the row blocks of the full matrix product: inside a block the product into a zero accumulator is the plain sum
  over the contraction axis and the narrowing conversions are the identity, and the twenty blocks tile the array; the
  reference's dot_general is the same sum. A bias launch's blocks are the row blocks of  max (a + b, 0)  taken entry by
  entry with the bias row repeated down the rows, which is the reference's broadcast, add and maximum. The edge weights
  are computed once by the kernel program and once per layer by the reference, by the same operations on the same edge
  list. No law of arithmetic is needed: the sums on the two sides range over the same index set, term for term, so the
  precondition is never opened.
  The word-level kernel and the idealized kernel run to completion with their arguments unchanged by the launch
  theorem over the program's nine segments; the reference by its straight-line run. Nothing was rewritten between the
  kernel and its idealization, so there is nothing to preserve.
-/
import proofs.«108220_j42279658062345_1_alg».proof.Defs
import proofs.«108220_j42279658062345_1_alg».proof.Proof.Gen.Kernel
import proofs.«108220_j42279658062345_1_alg».proof.Proof.Gen.Kernel.Skeleton
import proofs.«108220_j42279658062345_1_alg».proof.Proof.Gen.Kernel.Launch
import proofs.«108220_j42279658062345_1_alg».proof.Proof.Gen.Kernel.Points
import proofs.«108220_j42279658062345_1_alg».proof.Proof.Gen.Kernel.Frame
import proofs.«108220_j42279658062345_1_alg».proof.Proof.Gen.KernelIdeal
import proofs.«108220_j42279658062345_1_alg».proof.Proof.Gen.KernelIdeal.Skeleton
import proofs.«108220_j42279658062345_1_alg».proof.Proof.Gen.KernelIdeal.Launch
import proofs.«108220_j42279658062345_1_alg».proof.Proof.Gen.KernelIdeal.Points
import proofs.«108220_j42279658062345_1_alg».proof.Proof.Gen.KernelIdeal.Frame
import proofs.«108220_j42279658062345_1_alg».proof.Proof.Gen.ReferenceIdeal
import proofs.«108220_j42279658062345_1_alg».proof.Proof.Gen.Pre_finite_inputs
import proofs.«108220_j42279658062345_1_alg».proof.Proof.KernelRun
import proofs.«108220_j42279658062345_1_alg».proof.Proof.RefRun
import proofs.«108220_j42279658062345_1_alg».proof.Proof.RefRead
import proofs.«108220_j42279658062345_1_alg».proof.Proof.Boundaries
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The reference runs and leaves its arguments as launched: its straight-line run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result array at the reference's last stage applied to the kernel's argument arrays:
    the kernel by the chain of its segment boundaries, the reference by its run, read at arguments that agree. -/
theorem algebraic : Cert.algebraic_KernelIdeal_ReferenceIdeal := by
  intro m ρ m' ρ' _ hagree
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Boundaries.result m ρ c), (h c).2⟩)
      (Cert.KernelIdeal.RunValue.run_main m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v95_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
